-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S10000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S10000 .f32 := Host.absf main_arg0
  let main_cst : FVec F S_ .f32 := constant S_ .f32 0x7F800000#32
  let main_v1 : FVec F S10000 .f32 := broadcastInDim S10000 ![] bcast_S_S10000 main_cst
  let main_v2 : IVec S10000 1 := cmpf .olt main_v0 main_v1
  let main_c : IVec S_ 1 := constantI S_ 1 1#1
  let main_v3 : IVec S_ 1 := (fun x v => Host.reduce IntOp.andi x v reducesTo_S10000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000 : Shape := ⟨1, ![10000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S10000x5 : Shape := ⟨2, ![10000, 5]⟩
abbrev S10000x1 : Shape := ⟨2, ![10000, 1]⟩
abbrev S10000x128 : Shape := ⟨2, ![10000, 128]⟩
abbrev S1x5 : Shape := ⟨2, ![1, 5]⟩

abbrev nBuf : Space → Nat
  | .hbm => 8
  | .vmem => 8
  | .smem => 0
  | _ => 0

abbrev bufTy : (tb : Table) → Fin (tcTables nBuf tb) → BufTy
  | .hbm, ⟨0, _⟩ => ⟨S10000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S10000x5, .f32⟩
  | .local _ .vmem, ⟨0, _⟩ => ⟨S10000, .f32⟩
  | .local _ .vmem, ⟨1, _⟩ => ⟨S1x128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S128x5, .f32⟩
  | .local _ .vmem, ⟨6, _⟩ => ⟨S5, .f32⟩
  | .local _ .vmem, ⟨7, _⟩ => ⟨S10000x5, .f32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10000x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  inb_S10000_S10000_0 : ∀ a, (![0] : Fin 1 → Nat) a + S10000.size a ≤ S10000.size a
  h_S10000 : 0 < S10000.numel
  shapeCasts_S10000_S10000x1 : S10000.ShapeCasts S10000x1
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  dot_S10000x1_S1x128_S10000x128_1_0_0_1_n_n_wf : DotDims.WF S10000x1 S1x128 S10000x128 [1] [0] [0] [1] [] []
  dot_S10000x128_S128x128_S10000x128_1_0_0_1_n_n_wf : DotDims.WF S10000x128 S128x128 S10000x128 [1] [0] [0] [1] [] []
  dot_S10000x128_S128x5_S10000x5_1_0_0_1_n_n_wf : DotDims.WF S10000x128 S128x5 S10000x5 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v0) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000 : Shape := ⟨1, ![10000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S10000x1 : Shape := ⟨2, ![10000, 1]⟩
abbrev S10000x128 : Shape := ⟨2, ![10000, 128]⟩
abbrev S_ : Shape := ⟨0, ![]⟩
abbrev S10000x5 : Shape := ⟨2, ![10000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S10000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S10000x1, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x5, .f32⟩
  | .hbm, ⟨23, _⟩ => ⟨S1x5, .f32⟩
  | .hbm, ⟨24, _⟩ => ⟨S10000x5, .f32⟩
  | .hbm, ⟨25, _⟩ => ⟨S10000x5, .f32⟩
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  dot_S10000x1_S1x128_S10000x128_1_0_0_1_n_n_wf : DotDims.WF S10000x1 S1x128 S10000x128 [1] [0] [0] [1] [] []
  dot_S10000x128_S128x128_S10000x128_1_0_0_1_n_n_wf : DotDims.WF S10000x128 S128x128 S10000x128 [1] [0] [0] [1] [] []
  dot_S10000x128_S128x5_S10000x5_1_0_0_1_n_n_wf : DotDims.WF S10000x128 S128x5 S10000x5 [1] [0] [0] [1] [] []

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Mlp.lean ====
/-
  A three-layer perceptron over a column of scalars, as ONE function of its seven parameter arrays on the extended reals.

  With t a vector of M scalars, W1 : [1, H], b1 : [H], W2 : [H, H'], b2 : [H'], W3 : [H', E], b3 : [E], the result at
  row p and column j is

      (∑ b, max ((∑ a, max ((∑ k, t p · W1 (k, a)) + b1 a) 0 · W2 (a, b)) + b2 b) 0 · W3 (b, j)) + b3 j,

  the innermost sum over the one index k of the unit axis. It is built from three pieces: `column` (a vector read as a
  one-column matrix), `affine` (a matrix product with a bias row added to every row) and `relu` (the larger of an entry
  and the float zero). Below them, three laws read a program's array operations as those pieces: a matrix product
  into the zero accumulator plus a broadcast bias row is `affine`; a maximum against a splat of the zero word is `relu`;
  a cast of [M] to [M, 1] is `column`. No law here reorders a sum or distributes a product, so none needs finiteness.
-/
import Idealize.ShloMosaic.Lib.ValueIdx
import Idealize.ShloMosaic.Lib.ValueLayout
import Idealize.ShloMosaic.PureOps.Ideal.Laws
import proofs.«162719_g78082505441908_cont_sun_c4_685_5_alg».proof.Proof.LibDot2

noncomputable section

namespace Cert.Mlp

open Idealize.ShloMosaic Idealize.ShloMosaic.ValueIdx

/-! ## The function -/

/-- A vector of `M` entries read as an `M`-by-1 matrix: entry `(p, 0)` is entry `p`. -/
def column {M : Nat} (t : (⟨1, ![M]⟩ : Shape).Idx → EReal) : (⟨2, ![M, 1]⟩ : Shape).Idx → EReal :=
  fun i => t (ix1 (i 0))

/-- An affine layer: at `(p, j)` the sum over `a` of `x (p, a) · W (a, j)`, plus the bias `b j`. -/
def affine {M K N : Nat} (x : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ a : Fin K, x (ix2 (i 0) a) * W (ix2 a (i 1))) + b (ix1 (i 1))

/-- The rectifier, entry by entry: the larger of the entry and the float whose word is zero. -/
def relu {s : Shape} (x : s.Idx → EReal) : s.Idx → EReal :=
  fun i => max (x i) (Ideal.ofBits .f32 0x00000000#32)

/-- The perceptron: three affine layers over the column of `t`, a rectifier after the first and the second. -/
def mlp {M H H' E : Nat} (t : (⟨1, ![M]⟩ : Shape).Idx → EReal)
    (W1 : (⟨2, ![1, H]⟩ : Shape).Idx → EReal) (b1 : (⟨1, ![H]⟩ : Shape).Idx → EReal)
    (W2 : (⟨2, ![H, H']⟩ : Shape).Idx → EReal) (b2 : (⟨1, ![H']⟩ : Shape).Idx → EReal)
    (W3 : (⟨2, ![H', E]⟩ : Shape).Idx → EReal) (b3 : (⟨1, ![E]⟩ : Shape).Idx → EReal) :
    (⟨2, ![M, E]⟩ : Shape).Idx → EReal :=
  affine (relu (affine (relu (affine (column t) W1 b1)) W2 b2)) W3 b3

/-! ## A vector cast to one column -/

/-- An `[a]` array cast to `[a, 1]` reads, at `(i, u)`, the operand at `i`, whatever the unit coordinate `u`: the
    row-major positions agree, `i = i · 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the cast of a vector to one column is `column`. -/
theorem shapeCast_eq_column {M : ℕ} (t : FVec Ideal ⟨1, ![M]⟩ .f32) (h : (⟨1, ![M]⟩ : Shape).ShapeCasts ⟨2, ![M, 1]⟩) :
    shapeCast ⟨2, ![M, 1]⟩ t h = column t := by
  funext i
  obtain ⟨p, u, rfl⟩ : ∃ (p : Fin M) (u : Fin 1), i = ix2 p u := ⟨i 0, i 1, eq_ix2 i⟩
  exact shapeCast_a_a1_apply t h p u

/-! ## A matrix product into the zero accumulator, plus a bias row -/

/-- A product of an `[M, K]` by a `[K, N]` array into the zero accumulator, plus a length-`N` bias cast to one row and
    broadcast over the `M` rows, is the affine layer: the product at `(p, j)` is the plain sum over `Fin K` (from the
    four coordinate facts of the dimension numbers), and the broadcast row at `(p, j)` is the bias at `j`. -/
theorem matmul_bias_eq_affine {M K N : Nat} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![M, N]⟩) :
    addf (matmul D prec x W (constant (F := Ideal) ⟨2, ![M, N]⟩ .f32 0x00000000#32))
        (broadcastTo ⟨2, ![M, N]⟩ (shapeCast ⟨2, ![1, N]⟩ b hc) hb)
      = affine x W b := by
  funext i
  obtain ⟨p, j, rfl⟩ : ∃ (p : Fin M) (j : Fin N), i = ix2 p j := ⟨i 0, i 1, eq_ix2 i⟩
  rw [addf_apply, Cert.Lib.Dot2.matmul_zero_ix2 D prec hr hs hl0 hl1 hr0 hr1, broadcastTo_1b_ab_apply,
    shapeCast_a_1a_apply]
  rfl

/-- The same for the plain dimension numbers (rows by contraction times contraction by columns, no batch axis), whose
    four coordinate facts hold by computation: the left operand is read at (row, k), the right at (k, column). -/
theorem plain_matmul_bias_eq_affine {M K N : Nat} (prec : Option ContractPrecision)
    (x : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![M, N]⟩) :
    addf (matmul (DotDims.plain M K N) prec x W (constant (F := Ideal) ⟨2, ![M, N]⟩ .f32 0x00000000#32))
        (broadcastTo ⟨2, ![M, N]⟩ (shapeCast ⟨2, ![1, N]⟩ b hc) hb)
      = affine x W b :=
  matmul_bias_eq_affine (DotDims.plain M K N) prec rfl rfl (fun _ _ => rfl) (fun _ _ => rfl) (fun _ _ => rfl)
    (fun _ _ => rfl) x W b hc hb

/-! ## A maximum against the zero splat -/

/-- The entrywise maximum of an array and a splat of the float zero is the rectifier. -/
theorem maximumf_splat_eq_relu {s : Shape} (y : FVec Ideal s .f32) :
    maximumf y (broadcast s (FloatOps.ofBits (F := Ideal) .f32 0x00000000#32)) = relu y := rfl

end Cert.Mlp

end
-- ==== Proof.KernelValue.lean ====
/-
  What the kernel's result array holds after its run, at the ideal instance: the three-layer perceptron `Cert.Mlp.mlp` of
  the seven argument arrays.

  The kernel has no grid: one point, every window the whole of its array, at block index zero. So
  * the body's one stored value, a pure term of its seven loads, is `mlp` of those loads (`payload_eq`): each matrix product
    into the zero accumulator plus its broadcast bias row is an affine layer (the printed dimension numbers are the plain
    ones, rows by contraction times contraction by columns), each maximum against the zero splat a rectifier, and the cast
    of the scalars' vector to [10000, 1] the column;
  * each input window's block at the point is its whole array (`block0` … `block6`: a read through the whole-shape
    rectangle at zero offsets);
  * so what the point writes back is the whole of `mlp` of the arrays (`flushed_eq`), its block covers the result array
    (`covered`), and the array ends holding `mlp` (`final`).
-/
import proofs.«162719_g78082505441908_cont_sun_c4_685_5_alg».proof.Proof.Gen.KernelIdeal.Value
import proofs.«162719_g78082505441908_cont_sun_c4_685_5_alg».proof.Proof.Mlp

noncomputable section

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)
open Cert.Mlp

/-! ## The body's arithmetic is the perceptron -/

/-- The three products' dimension numbers are the plain ones: contract the left operand's second axis with the right
    operand's first, no batch axis. -/
theorem first_dims : dot_S10000x1_S1x128_S10000x128_1_0_0_1_n_n = DotDims.plain 10000 1 128 := rfl
theorem second_dims : dot_S10000x128_S128x128_S10000x128_1_0_0_1_n_n = DotDims.plain 10000 128 128 := rfl
theorem third_dims : dot_S10000x128_S128x5_S10000x5_1_0_0_1_n_n = DotDims.plain 10000 128 5 := rfl

/-- The value the body stores, as a function of its seven loads, is the perceptron of them. -/
theorem payload_eq (v0 : Vec Ideal S10000 .f32) (v2 : Vec Ideal S1x128 .f32) (v4 : Vec Ideal S128 .f32)
    (v10 : Vec Ideal S128x128 .f32) (v12 : Vec Ideal S128 .f32) (v18 : Vec Ideal S128x5 .f32) (v20 : Vec Ideal S5 .f32) :
    k0_pay1 (F := Ideal) v0 v2 v4 v10 v12 v18 v20 = mlp v0 v2 v4 v10 v12 v18 v20 := by
  unfold k0_pay1 mlp
  dsimp only
  rw [first_dims, second_dims, third_dims, shapeCast_eq_column, plain_matmul_bias_eq_affine, maximumf_splat_eq_relu,
    plain_matmul_bias_eq_affine, maximumf_splat_eq_relu, plain_matmul_bias_eq_affine]

/-! ## Each input window's block is its whole array -/

variable (m : (ℓ : Loc nD τ sig) → Buf (Elt Ideal) ℓ) (ρ : Dev nD → PrngReg)

/-- The scalars' block at the point is the whole vector: the window's rectangle is the whole shape at offset
    `0 · 10000 = 0`. -/
theorem block0 (c : Dev nD) (t : Fin cfg0.N) : (iblk m c 0 t : Vec Ideal S10000 .f32) = V m c main_arg0 := by
  have hz : (fun a => win0_0.index t a * main_arg0.ty.shape.size a) = fun _ => 0 := funext fun a => Nat.zero_mul _
  exact Memref.read_access_unit_zero (Elt Ideal) main_arg0 hz (fun a => by rw [congrFun hz a]; simp) (V m c main_arg0)

theorem block1 (c : Dev nD) (t : Fin cfg0.N) : (iblk m c 1 t : Vec Ideal S1x128 .f32) = V m c main_arg1 := by
  have hz : (fun a => win0_1.index t a * main_arg1.ty.shape.size a) = fun _ => 0 := funext fun a => Nat.zero_mul _
  exact Memref.read_access_unit_zero (Elt Ideal) main_arg1 hz (fun a => by rw [congrFun hz a]; simp) (V m c main_arg1)

theorem block2 (c : Dev nD) (t : Fin cfg0.N) : (iblk m c 2 t : Vec Ideal S128 .f32) = V m c main_arg2 := by
  have hz : (fun a => win0_2.index t a * main_arg2.ty.shape.size a) = fun _ => 0 := funext fun a => Nat.zero_mul _
  exact Memref.read_access_unit_zero (Elt Ideal) main_arg2 hz (fun a => by rw [congrFun hz a]; simp) (V m c main_arg2)

theorem block3 (c : Dev nD) (t : Fin cfg0.N) : (iblk m c 3 t : Vec Ideal S128x128 .f32) = V m c main_arg3 := by
  have hz : (fun a => win0_3.index t a * main_arg3.ty.shape.size a) = fun _ => 0 := funext fun a => Nat.zero_mul _
  exact Memref.read_access_unit_zero (Elt Ideal) main_arg3 hz (fun a => by rw [congrFun hz a]; simp) (V m c main_arg3)

theorem block4 (c : Dev nD) (t : Fin cfg0.N) : (iblk m c 4 t : Vec Ideal S128 .f32) = V m c main_arg4 := by
  have hz : (fun a => win0_4.index t a * main_arg4.ty.shape.size a) = fun _ => 0 := funext fun a => Nat.zero_mul _
  exact Memref.read_access_unit_zero (Elt Ideal) main_arg4 hz (fun a => by rw [congrFun hz a]; simp) (V m c main_arg4)

theorem block5 (c : Dev nD) (t : Fin cfg0.N) : (iblk m c 5 t : Vec Ideal S128x5 .f32) = V m c main_arg5 := by
  have hz : (fun a => win0_5.index t a * main_arg5.ty.shape.size a) = fun _ => 0 := funext fun a => Nat.zero_mul _
  exact Memref.read_access_unit_zero (Elt Ideal) main_arg5 hz (fun a => by rw [congrFun hz a]; simp) (V m c main_arg5)

theorem block6 (c : Dev nD) (t : Fin cfg0.N) : (iblk m c 6 t : Vec Ideal S5 .f32) = V m c main_arg6 := by
  have hz : (fun a => win0_6.index t a * main_arg6.ty.shape.size a) = fun _ => 0 := funext fun a => Nat.zero_mul _
  exact Memref.read_access_unit_zero (Elt Ideal) main_arg6 hz (fun a => by rw [congrFun hz a]; simp) (V m c main_arg6)

/-! ## What the point writes back, and the array after the run -/

theorem hz1 : (![0] : Fin 1 → Nat) = fun _ => 0 := funext fun a => by fin_cases a <;> rfl
theorem hz2 : (![0, 0] : Fin 2 → Nat) = fun _ => 0 := funext fun a => by fin_cases a <;> rfl

/-- The point writes back the whole of `mlp` of the argument arrays as the region finds them: the body's one store covers
    its buffer with the payload, each load reads its whole block, each block is its array, and the output window's block
    is the whole result array. -/
theorem flushed_eq (c : Dev nD) (t : Fin cfg0.N) :
    (dats m 0 c).flushed 7 t = ((cfg0.win 7).blk t).view.read (Elt Ideal)
      (mlp (V m c main_arg0) (V m c main_arg1) (V m c main_arg2) (V m c main_arg3) (V m c main_arg4) (V m c main_arg5) (V m c main_arg6)) := by
  rw [Value.flushed7]
  unfold out0_7
  rw [View.canon_unit_zero hz2]
  simp only [View.ld_unit_zero (S := S10000) hz1, View.ld_unit_zero (S := S1x128) hz2, View.ld_unit_zero (S := S128) hz1,
    View.ld_unit_zero (S := S128x128) hz2, View.ld_unit_zero (S := S128x5) hz2, View.ld_unit_zero (S := S5) hz1]
  rw [payload_eq, block0, block1, block2, block3, block4, block5, block6]
  have hz : (fun a => win0_7.index t a * main_v0.ty.shape.size a) = fun _ => 0 := funext fun a => Nat.zero_mul _
  exact (Memref.read_access_unit_zero (Elt Ideal) main_v0 hz (fun a => by rw [congrFun hz a]; simp) _).symm

/-- Every index of the result array is in the one point's block: the block is the whole array. -/
theorem covered (i : S10000x5.Idx) :
    ∃ t : Fin cfg0.N, (cfg0.win 7).flush t = true ∧ i ∈ ((cfg0.win 7).blk t).view.set := by
  refine ⟨t0_0, flush0_7 t0_0, ?_⟩
  show i ∈ ((View.whole main_v0).slice (win0_7.rect t0_0)).set
  rw [View.set_slice_whole, Rect.mem_set_unit]
  intro a
  match a with
  | ⟨0, _⟩ =>
    show win0_7.index t0_0 (0 : Fin 2) * 10000 ≤ (i 0).val ∧ (i 0).val < win0_7.index t0_0 (0 : Fin 2) * 10000 + 10000
    rw [show win0_7.index t0_0 (0 : Fin 2) = 0 from rfl]
    have h0 : (i 0).val < 10000 := (i 0).isLt
    omega
  | ⟨1, _⟩ =>
    show win0_7.index t0_0 (1 : Fin 2) * 5 ≤ (i 1).val ∧ (i 1).val < win0_7.index t0_0 (1 : Fin 2) * 5 + 5
    rw [show win0_7.index t0_0 (1 : Fin 2) = 0 from rfl]
    have h1 : (i 1).val < 5 := (i 1).isLt
    omega

/-- So the result array ends holding the perceptron of the argument arrays. -/
theorem final (c : Dev nD) :
    (dats m 0 c).arrAt 7 cfg0.N
      = mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (dats m 0 c).arrAt_eq_of_cover 7 _ (fun t _ => flushed_eq m c t) covered

/-! ## The run, read -/

/-- Every weakly fair execution of the kernel's program terminates with the result array at the perceptron of the
    argument arrays, and the arguments unchanged. -/
theorem run : θ_run defs (onTc (τ := τ) (main (F := Ideal))) ⟨m, fun _ => 0, ρ⟩ fun r => ∀ c : Dev nD,
      r.2.mem ((c : Thread nD τ).loc main_v0)
        = mlp (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.MlpValue

end
-- ==== Proof.ReferenceValue.lean ====
/-
  What the reference computes, at the ideal instance: the same three-layer perceptron `Cert.Mlp.mlp` of its seven arguments.

  The reference's run ends with its result at the composed term of its nineteen host operations; read one operation at
  a time (the generated read-at-an-index lemmas) that term is, layer by layer,
  * `broadcast_in_dim` of the scalars to [10000, 1]: the column;
  * `dot_general` (contract the left operand's second axis with the right operand's first), plus the bias broadcast first
    to one row and then over the rows: an affine layer — the `dot_general` at `(p, j)` is the sum over `k` of the left
    operand at `(p, k)` times the right at `(k, j)`, and the twice-broadcast bias at `(p, j)` is the bias at `j`;
  * `maximum` against the broadcast of the scalar zero: the rectifier.
  Nothing is reordered: each stage is the corresponding piece of `mlp` index by index.
-/
import proofs.«162719_g78082505441908_cont_sun_c4_685_5_alg».proof.Proof.Gen.ReferenceIdeal.Read
import proofs.«162719_g78082505441908_cont_sun_c4_685_5_alg».proof.Proof.Mlp

noncomputable section

namespace Cert.ReferenceIdeal.MlpValue

open Cert.ReferenceIdeal Cert.ReferenceIdeal.Gen Cert.ReferenceIdeal.Read Idealize.ShloMosaic Idealize.ShloMosaic.TcCoe
open Idealize.ShloMosaic.ValueIdx
open Cert.Mlp

variable (x0 : (⟨S10000, .f32⟩ : BufTy).Contents (Elt Ideal)) (x1 : (⟨S1x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x5, .f32⟩ : BufTy).Contents (Elt Ideal))
  (x6 : (⟨S5, .f32⟩ : BufTy).Contents (Elt Ideal))

/-! ## The scalars as a column -/

/-- The scalars broadcast along a new unit axis are the column. -/
theorem scalars_eq_column : val_main_v0 (F := Ideal) x0 = column x0 := by
  funext i
  rw [val_main_v0_apply]
  exact congrArg x0 (funext fun a => by match a with | ⟨0, _⟩ => rfl)

/-! ## The first layer -/

/-- The first `dot_general` plus its twice-broadcast bias is the affine layer over the column. -/
theorem first_affine : val_main_v4 (F := Ideal) x0 x1 x2 = affine (val_main_v0 (F := Ideal) x0) x1 x2 := by
  funext i
  obtain ⟨p, j, rfl⟩ : ∃ (p : Fin 10000) (j : Fin 128), i = ix2 p j := ⟨i 0, i 1, eq_ix2 i⟩
  rw [val_main_v4_apply, val_main_v1_apply, val_main_v3_apply, val_main_v2_apply]
  have el : ∀ k, lidx_main_v1 (ix2 p j) k = ix2 p k := fun k => funext fun a => by
    match a with | ⟨0, _⟩ => rfl | ⟨1, _⟩ => rfl
  have er : ∀ k, ridx_main_v1 (ix2 p j) k = ix2 k j := fun k => funext fun a => by
    match a with | ⟨0, _⟩ => rfl | ⟨1, _⟩ => rfl
  have eb : idx_main_v2 (idx_main_v3 (ix2 p j)) = ix1 j := funext fun a => by match a with | ⟨0, _⟩ => rfl
  simp only [el, er, eb]
  rfl

/-- The first `maximum` against the broadcast zero is the rectifier. -/
theorem first_relu : val_main_v5 (F := Ideal) x0 x1 x2 = relu (val_main_v4 (F := Ideal) x0 x1 x2) := rfl

/-! ## The second layer -/

theorem second_affine : val_main_v9 (F := Ideal) x0 x1 x2 x3 x4 = affine (val_main_v5 (F := Ideal) x0 x1 x2) x3 x4 := by
  funext i
  obtain ⟨p, j, rfl⟩ : ∃ (p : Fin 10000) (j : Fin 128), i = ix2 p j := ⟨i 0, i 1, eq_ix2 i⟩
  rw [val_main_v9_apply, val_main_v6_apply, val_main_v8_apply, val_main_v7_apply]
  have el : ∀ k, lidx_main_v6 (ix2 p j) k = ix2 p k := fun k => funext fun a => by
    match a with | ⟨0, _⟩ => rfl | ⟨1, _⟩ => rfl
  have er : ∀ k, ridx_main_v6 (ix2 p j) k = ix2 k j := fun k => funext fun a => by
    match a with | ⟨0, _⟩ => rfl | ⟨1, _⟩ => rfl
  have eb : idx_main_v7 (idx_main_v8 (ix2 p j)) = ix1 j := funext fun a => by match a with | ⟨0, _⟩ => rfl
  simp only [el, er, eb]
  rfl

theorem second_relu : val_main_v10 (F := Ideal) x0 x1 x2 x3 x4 = relu (val_main_v9 (F := Ideal) x0 x1 x2 x3 x4) := rfl

/-! ## The third layer -/

theorem third_affine :
    val_main_v14 (F := Ideal) x0 x1 x2 x3 x4 x5 x6 = affine (val_main_v10 (F := Ideal) x0 x1 x2 x3 x4) x5 x6 := by
  funext i
  obtain ⟨p, j, rfl⟩ : ∃ (p : Fin 10000) (j : Fin 5), i = ix2 p j := ⟨i 0, i 1, eq_ix2 i⟩
  rw [val_main_v14_apply, val_main_v11_apply, val_main_v13_apply, val_main_v12_apply]
  have el : ∀ k, lidx_main_v11 (ix2 p j) k = ix2 p k := fun k => funext fun a => by
    match a with | ⟨0, _⟩ => rfl | ⟨1, _⟩ => rfl
  have er : ∀ k, ridx_main_v11 (ix2 p j) k = ix2 k j := fun k => funext fun a => by
    match a with | ⟨0, _⟩ => rfl | ⟨1, _⟩ => rfl
  have eb : idx_main_v12 (idx_main_v13 (ix2 p j)) = ix1 j := funext fun a => by match a with | ⟨0, _⟩ => rfl
  simp only [el, er, eb]
  rfl

/-! ## The whole reference -/

/-- The reference's result term is the perceptron of its arguments. -/
theorem result_eq : val_main_v14 (F := Ideal) x0 x1 x2 x3 x4 x5 x6 = mlp x0 x1 x2 x3 x4 x5 x6 := by
  rw [third_affine, second_relu, second_affine, first_relu, first_affine, scalars_eq_column]
  rfl

end Cert.ReferenceIdeal.MlpValue

end
-- ==== Proof.lean ====
/-
  The kernel and its reference compute one function: a three-layer perceptron over 10000 scalars,

      out (p, j) = (∑ b, max ((∑ a, max (t p · W1 (0, a) + b1 a) 0 · W2 (a, b)) + b2 b) 0 · W3 (b, j)) + b3 j.

  The kernel fuses the three layers in one gridless call: every operand is a whole-array window, the first layer a matrix
  product with a contraction axis of length one. The reference is the same chain on the host. At the ideal instance a
  matrix product into the zero accumulator and the host's `dot_general` are both the plain sum over the contracted axis,
  and both programs add the bias and take the maximum with the same zero in the same order, so the two results agree
  entry by entry with no law of arithmetic applied at all: both are `Cert.Mlp.mlp` of the arguments, and finiteness of
  the inputs is never used.

  * the three frames: the two kernel programs' generated frames; the reference's is its generated run with the result dropped;
  * `preserves`: the ideal pass rewrote nothing, the conjunct is `True`;
  * `algebraic`: the kernel's run ends at `mlp` of its arguments (KernelValue.lean), the reference's run at its
    operations' composed term, which is `mlp` of its arguments (ReferenceValue.lean); the arguments agree.
-/
import proofs.«162719_g78082505441908_cont_sun_c4_685_5_alg».proof.Defs
import proofs.«162719_g78082505441908_cont_sun_c4_685_5_alg».proof.Proof.Gen.Kernel
import proofs.«162719_g78082505441908_cont_sun_c4_685_5_alg».proof.Proof.Gen.Kernel.Skeleton
import proofs.«162719_g78082505441908_cont_sun_c4_685_5_alg».proof.Proof.Gen.Kernel.Launch
import proofs.«162719_g78082505441908_cont_sun_c4_685_5_alg».proof.Proof.Gen.Kernel.Points
import proofs.«162719_g78082505441908_cont_sun_c4_685_5_alg».proof.Proof.Gen.Kernel.Frame
import proofs.«162719_g78082505441908_cont_sun_c4_685_5_alg».proof.Proof.Gen.KernelIdeal
import proofs.«162719_g78082505441908_cont_sun_c4_685_5_alg».proof.Proof.Gen.KernelIdeal.Skeleton
import proofs.«162719_g78082505441908_cont_sun_c4_685_5_alg».proof.Proof.Gen.KernelIdeal.Launch
import proofs.«162719_g78082505441908_cont_sun_c4_685_5_alg».proof.Proof.Gen.KernelIdeal.Points
import proofs.«162719_g78082505441908_cont_sun_c4_685_5_alg».proof.Proof.Gen.KernelIdeal.Frame
import proofs.«162719_g78082505441908_cont_sun_c4_685_5_alg».proof.Proof.Gen.ReferenceIdeal
import proofs.«162719_g78082505441908_cont_sun_c4_685_5_alg».proof.Proof.Gen.Pre_finite_inputs
import proofs.«162719_g78082505441908_cont_sun_c4_685_5_alg».proof.Proof.Gen.KernelIdeal.Value
import proofs.«162719_g78082505441908_cont_sun_c4_685_5_alg».proof.Proof.Gen.ReferenceIdeal.Run
import proofs.«162719_g78082505441908_cont_sun_c4_685_5_alg».proof.Proof.Gen.ReferenceIdeal.Read
import proofs.«162719_g78082505441908_cont_sun_c4_685_5_alg».proof.Proof.KernelValue
import proofs.«162719_g78082505441908_cont_sun_c4_685_5_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories that agree on the seven arguments, both end with the result array at the
    perceptron of those arguments. -/
theorem algebraic : Cert.algebraic_KernelIdeal_ReferenceIdeal := by
  intro m ρ m' ρ' _ hagree
  refine ⟨_, Cert.KernelIdeal.MlpValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.MlpValue.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
